-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x25 : Shape := ⟨2, ![100000, 25]⟩
abbrev S_ : Shape := ⟨0, ![]⟩

class Facts : Prop where
  bcast_S_S100000x25 : S_.BroadcastsInDim S100000x25 (![] : Fin 0 → Fin S100000x25.rank)
  reducesTo_S100000x25_S_d0_1 : S100000x25.ReducesTo [0, 1] S_
  h_S_ : 0 < S_.numel
  bcast_S_S2x3200000 : S_.BroadcastsInDim S2x3200000 (![] : Fin 0 → Fin S2x3200000.rank)
  reducesTo_S2x3200000_S_d0_1 : S2x3200000.ReducesTo [0, 1] S_

variable [Facts]

def fn {F : FTy → Type} [FloatOps F] (main_arg0 : IVec S2x3200000 32) (main_arg1 : FVec F S100000x25 .f32) : IVec S_ 1 :=
  let main_v0 : FVec F S100000x25 .f32 := Host.absf main_arg1
  let main_cst : FVec F S_ .f32 := constant S_ .f32 0x7F800000#32
  let main_v1 : FVec F S100000x25 .f32 := broadcastInDim S100000x25 ![] bcast_S_S100000x25 main_cst
  let main_v2 : IVec S100000x25 1 := cmpf .olt main_v0 main_v1
  let main_c : IVec S_ 1 := constantI S_ 1 1#1
  let main_v3 : IVec S_ 1 := (fun x v => Host.reduce IntOp.andi x v reducesTo_S100000x25_S_d0_1 h_S_) main_v2 main_c
  let main_c_0 : IVec S_ 32 := constantI S_ 32 0#32
  let main_v4 : IVec S2x3200000 32 := broadcastInDim S2x3200000 ![] bcast_S_S2x3200000 main_c_0
  let main_v5 : IVec S2x3200000 1 := cmpi .sge main_arg0 main_v4
  let main_c_1 : IVec S_ 1 := constantI S_ 1 1#1
  let main_v6 : IVec S_ 1 := (fun x v => Host.reduce IntOp.andi x v reducesTo_S2x3200000_S_d0_1 h_S_) main_v5 main_c_1
  let main_v7 : IVec S_ 1 := andi main_v3 main_v6
  main_v7
-- ==== Kernel.lean ====
abbrev S2x3200000 : Shape := ⟨2, ![2, 3200000]⟩
abbrev S100000x25 : Shape := ⟨2, ![100000, 25]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x25 : Shape := ⟨2, ![3200000, 25]⟩
abbrev S3200000x5 : Shape := ⟨2, ![3200000, 5]⟩
abbrev S3200x25 : Shape := ⟨2, ![3200, 25]⟩
abbrev S3200x5 : Shape := ⟨2, ![3200, 5]⟩
abbrev S3200x1 : Shape := ⟨2, ![3200, 1]⟩
abbrev S3200 : Shape := ⟨1, ![3200]⟩
abbrev S3200x3 : Shape := ⟨2, ![3200, 3]⟩
abbrev S3200x7 : Shape := ⟨2, ![3200, 7]⟩
abbrev S3200x9 : Shape := ⟨2, ![3200, 9]⟩

abbrev nBuf : Space → Nat
  | .hbm => 69
  | .vmem => 6
  | .smem => 0
  | _ => 0

abbrev bufTy : (tb : Table) → Fin (tcTables nBuf tb) → BufTy
  | .hbm, ⟨0, _⟩ => ⟨S2x3200000, .i32⟩
  | .hbm, ⟨1, _⟩ => ⟨S100000x25, .f32⟩
  | .hbm, ⟨2, _⟩ => ⟨S1x3200000, .i32⟩
  | .hbm, ⟨3, _⟩ => ⟨S3200000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S3200000, .i32⟩
  | .hbm, ⟨8, _⟩ => ⟨S3200000, .i32⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S1, .i32⟩
  | .hbm, ⟨31, _⟩ => ⟨S_, .i32⟩
  | .hbm, ⟨32, _⟩ => ⟨S3200000x1, .i32⟩
  | .hbm, ⟨33, _⟩ => ⟨S3200000x1, .i1⟩
  | .hbm, ⟨34, _⟩ => ⟨S1x1, .i32⟩
  | .hbm, ⟨35, _⟩ => ⟨S3200000x1, .i32⟩
  | .hbm, ⟨36, _⟩ => ⟨S3200000x1, .i1⟩
  | .hbm, ⟨37, _⟩ => ⟨S3200000x1, .i1⟩
  | .hbm, ⟨38, _⟩ => ⟨S_, .i1⟩
  | .hbm, ⟨39, _⟩ => ⟨S3200000, .i1⟩
  | .hbm, ⟨40, _⟩ => ⟨S3200000x25, .f32⟩
  | .hbm, ⟨41, _⟩ => ⟨S3200000x25, .i1⟩
  | .hbm, ⟨42, _⟩ => ⟨S_, .f32⟩
  | .hbm, ⟨43, _⟩ => ⟨S3200000x25, .f32⟩
  | .hbm, ⟨44, _⟩ => ⟨S3200000x25, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S1, .i32⟩
  | .hbm, ⟨54, _⟩ => ⟨S_, .i32⟩
  | .hbm, ⟨55, _⟩ => ⟨S3200000x1, .i32⟩
  | .hbm, ⟨56, _⟩ => ⟨S3200000x1, .i1⟩
  | .hbm, ⟨57, _⟩ => ⟨S1x1, .i32⟩
  | .hbm, ⟨58, _⟩ => ⟨S3200000x1, .i32⟩
  | .hbm, ⟨59, _⟩ => ⟨S3200000x1, .i1⟩
  | .hbm, ⟨60, _⟩ => ⟨S3200000x1, .i1⟩
  | .hbm, ⟨61, _⟩ => ⟨S_, .i1⟩
  | .hbm, ⟨62, _⟩ => ⟨S3200000, .i1⟩
  | .hbm, ⟨63, _⟩ => ⟨S3200000x25, .f32⟩
  | .hbm, ⟨64, _⟩ => ⟨S3200000x25, .i1⟩
  | .hbm, ⟨65, _⟩ => ⟨S_, .f32⟩
  | .hbm, ⟨66, _⟩ => ⟨S3200000x25, .f32⟩
  | .hbm, ⟨67, _⟩ => ⟨S3200000x25, .f32⟩
  | .hbm, ⟨68, _⟩ => ⟨S3200000x5, .f32⟩
  | .local _ .vmem, ⟨0, _⟩ => ⟨S3200x25, .f32⟩
  | .local _ .vmem, ⟨1, _⟩ => ⟨S3200x25, .f32⟩
  | .local _ .vmem, ⟨2, _⟩ => ⟨S3200x25, .f32⟩
  | .local _ .vmem, ⟨3, _⟩ => ⟨S3200x25, .f32⟩
  | .local _ .vmem, ⟨4, _⟩ => ⟨S3200x5, .f32⟩
  | .local _ .vmem, ⟨5, _⟩ => ⟨S3200x5, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_c_1 : Ref sig .tc := ⟨.hbm, 30, rfl⟩
abbrev main_call2_c_2 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_3 : Ref sig .tc := ⟨.hbm, 38, rfl⟩
abbrev main_call2_v12 : Ref sig .tc := ⟨.hbm, 39, rfl⟩
abbrev main_call2_v13 : Ref sig .tc := ⟨.hbm, 40, rfl⟩
abbrev main_call2_v14 : Ref sig .tc := ⟨.hbm, 41, rfl⟩
abbrev main_call2_cst : Ref sig .tc := ⟨.hbm, 42, rfl⟩
abbrev main_call2_v15 : Ref sig .tc := ⟨.hbm, 43, rfl⟩
abbrev main_v6 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_call3_cst : Ref sig .tc := ⟨.hbm, 65, rfl⟩
abbrev main_call3_v15 : Ref sig .tc := ⟨.hbm, 66, rfl⟩
abbrev main_v7 : Ref sig .tc := ⟨.hbm, 67, rfl⟩
abbrev main_v8 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x25_0 : S3200000.BroadcastsInDim S3200000x25 (![0] : Fin 1 → Fin S3200000x25.rank)
  bcast_S_S3200000x25 : S_.BroadcastsInDim S3200000x25 (![] : Fin 0 → Fin S3200000x25.rank)
  inb_S3200x25_S3200x25_0_0 : ∀ a, (![0, 0] : Fin 2 → Nat) a + S3200x25.size a ≤ S3200x25.size a
  h_S3200x25 : 0 < S3200x25.numel
  shapeCasts_S3200x25_S3200x25 : S3200x25.ShapeCasts S3200x25
  slices_S3200x25_o0_0_S3200x1 : S3200x25.Slices ![0, 0] S3200x1
  reduces_S3200x1_S3200 : S3200x1.Reduces [1] S3200
  shapeCasts_S3200_S3200x1 : S3200.ShapeCasts S3200x1
  slices_S3200x25_o0_1_S3200x3 : S3200x25.Slices ![0, 1] S3200x3
  reduces_S3200x3_S3200 : S3200x3.Reduces [1] S3200
  slices_S3200x25_o0_4_S3200x5 : S3200x25.Slices ![0, 4] S3200x5
  reduces_S3200x5_S3200 : S3200x5.Reduces [1] S3200
  slices_S3200x25_o0_9_S3200x7 : S3200x25.Slices ![0, 9] S3200x7
  reduces_S3200x7_S3200 : S3200x7.Reduces [1] S3200
  slices_S3200x25_o0_16_S3200x9 : S3200x25.Slices ![0, 16] S3200x9
  reduces_S3200x9_S3200 : S3200x9.Reduces [1] S3200
  concatenates_S3200x1_S3200x1_S3200x1_S3200x1_S3200x1_S3200x5_d1 : Shape.Concatenates [S3200x1, S3200x1, S3200x1, S3200x1, S3200x1] S3200x5 1
  inb_S3200x5_S3200x5_0_0 : ∀ a, (![0, 0] : Fin 2 → Nat) a + S3200x5.size a ≤ S3200x5.size a
  h_S3200x5 : 0 < S3200x5.numel
  gather_S100000x25_S3200000x1_S3200000x25_1_0_n_n_0_1_125_wf : GatherDims.WF S100000x25 S3200000x1 S3200000x25 [1] [0] [] [0] [] 1 ![1, 25]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x25.size a ≤ S3200000x25.size a
  hwx0_0 : ∀ i : grid0.Coords, EltTy.bits .f32 = 32 ∨ (Rect.block (s := S3200000x25) S3200x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x25.size a ≤ S3200000x25.size a
  hwx0_1 : ∀ i : grid0.Coords, EltTy.bits .f32 = 32 ∨ (Rect.block (s := S3200000x25) S3200x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x5.size a ≤ S3200000x5.size a
  hwx0_2 : ∀ i : grid0.Coords, EltTy.bits .f32 = 32 ∨ (Rect.block (s := S3200000x5) S3200x5.size (cc0_transform_2 i) (hinb0_2 i)).WholeWords (EltTy.packing .f32)

variable [Facts₀]

def gather_S100000x25_S3200000x1_S3200000x25_1_0_n_n_0_1_125 : GatherDims S100000x25 S3200000x1 S3200000x25 where
  offsetDims := [1]
  collapsedSliceDims := [0]
  operandBatchingDims := []
  startIndicesBatchingDims := []
  startIndexMap := [0]
  indexVectorDim := 1
  sliceSizes := ![1, 25]
  wf := gather_S100000x25_S3200000x1_S3200000x25_1_0_n_n_0_1_125_wf

abbrev win0_0 : Pipeline.Window sig grid0 :=
  Pipeline.Window.ofSpec (Memref.whole main_v6) S3200x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3200x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3200x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x3200000 : Shape := ⟨2, ![2, 3200000]⟩
abbrev S100000x25 : Shape := ⟨2, ![100000, 25]⟩
abbrev S25x5 : Shape := ⟨2, ![25, 5]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x25 : Shape := ⟨2, ![3200000, 25]⟩
abbrev S3200000x5 : Shape := ⟨2, ![3200000, 5]⟩

abbrev nBuf : Space → Nat
  | .hbm => 27
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S100000x25, .f32⟩
  | .hbm, ⟨2, _⟩ => ⟨S25x5, .f32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x25, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x25, .f32⟩
  | .hbm, ⟨25, _⟩ => ⟨S3200000x25, .f32⟩
  | .hbm, ⟨26, _⟩ => ⟨S3200000x5, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  gather_S100000x25_S3200000x1_S3200000x25_1_0_n_n_0_1_125_wf : GatherDims.WF S100000x25 S3200000x1 S3200000x25 [1] [0] [] [0] [] 1 ![1, 25]
  dot_S3200000x25_S25x5_S3200000x5_1_0_0_1_n_n_wf : DotDims.WF S3200000x25 S25x5 S3200000x5 [1] [0] [0] [1] [] []

variable [Facts₀]

def gather_S100000x25_S3200000x1_S3200000x25_1_0_n_n_0_1_125 : GatherDims S100000x25 S3200000x1 S3200000x25 where
  offsetDims := [1]
  collapsedSliceDims := [0]
  operandBatchingDims := []
  startIndicesBatchingDims := []
  startIndexMap := [0]
  indexVectorDim := 1
  sliceSizes := ![1, 25]
  wf := gather_S100000x25_S3200000x1_S3200000x25_1_0_n_n_0_1_125_wf
def dot_S3200000x25_S25x5_S3200000x5_1_0_0_1_n_n : DotDims S3200000x25 S25x5 S3200000x5 where
  lhsContracting := [1]
  rhsContracting := [0]
  lhsNonContracting := [0]
  rhsNonContracting := [1]
  lhsBatch := []
  rhsBatch := []
  wf := dot_S3200000x25_S25x5_S3200000x5_1_0_0_1_n_n_wf

class Facts : Prop extends Facts₀ where

variable [Facts]
-- ==== Proof.Spec.lean ====
/-
  The degree-wise edge message as ONE function of the two arguments.

  An edge e names two nodes by the words edge_index[0, e] and edge_index[1, e]. Its message has one entry per degree
  l = 0 … 4: the sum, over the feature columns k of that degree, of the product of the two nodes' features,

      out[e, l] = ∑_{k : deg k = l} x[row e, k] · x[col e, k],

  where the 25 feature columns are laid out degree by degree (1 + 3 + 5 + 7 + 9 columns: column 0 has degree 0,
  columns 1–3 degree 1, 4–8 degree 2, 9–15 degree 3, 16–24 degree 4). A node word is read signed and clamped to the
  table's rows: a negative word reads row 0, a word past the last row reads row 99999.

  Two ways of taking that sum meet here. One multiplies the 25 products by a 0/1 matrix P[k, l] = [deg k = l] and sums
  over all k; the other sums a contiguous stretch of columns. Both are the sum of the products whose column has degree l:
  x · 0 = 0, x · 1 = x and x + 0 = x hold for every extended real, infinite ones included, and addition of extended
  reals is commutative and associative, so neither law needs the entries to be finite.
-/
import Idealize.ShloMosaic.PureOps.Ideal
import Idealize.ShloMosaic.Lib.ValueIdx

noncomputable section

open scoped BigOperators

namespace Cert.EdgeMsg

open Idealize.ShloMosaic Idealize.ShloMosaic.ValueIdx

/-- The table row a node word reads: the word as a signed integer, a negative one read as 0, clamped to the last
    row 99999. -/
def rowOf (w : BitVec 32) : Fin 100000 := ⟨min w.toInt.toNat 99999, by omega⟩

theorem rowOf_val (w : BitVec 32) : (rowOf w).val = min w.toInt.toNat 99999 := rfl

/-- The degree of feature column k: the columns are laid out degree by degree, 2l + 1 columns of degree l. -/
def deg (k : Fin 25) : Fin 5 :=
  if k.val < 1 then 0 else if k.val < 4 then 1 else if k.val < 9 then 2 else if k.val < 16 then 3 else 4

/-- The columns of degree l are the stretch of 2l + 1 columns starting at l². -/
theorem deg_eq_iff : ∀ (k : Fin 25) (l : Fin 5), deg k = l ↔ l.val * l.val ≤ k.val ∧ k.val < (l.val + 1) * (l.val + 1) := by
  decide

/-- The message of edge e at degree l: the sum over the columns k of degree l of the product of the two named nodes'
    features. -/
def msg (ei : IVec ⟨2, ![2, 3200000]⟩ 32) (x : FVec Ideal ⟨2, ![100000, 25]⟩ .f32) (e : Fin 3200000) (l : Fin 5) : EReal :=
  ∑ k : Fin 25, if deg k = l then
    x (ix2 (rowOf (ei (ix2 (0 : Fin 2) e))) k) * x (ix2 (rowOf (ei (ix2 (1 : Fin 2) e))) k) else (0 : EReal)

/-- The message array: entry (e, l) is the message of edge e at degree l. -/
def G (ei : IVec ⟨2, ![2, 3200000]⟩ 32) (x : FVec Ideal ⟨2, ![100000, 25]⟩ .f32) : FVec Ideal ⟨2, ![3200000, 5]⟩ .f32 :=
  fun j => msg ei x (j 0) (j 1)

theorem G_apply (ei : IVec ⟨2, ![2, 3200000]⟩ 32) (x : FVec Ideal ⟨2, ![100000, 25]⟩ .f32) (e : Fin 3200000) (l : Fin 5) :
    G ei x (ix2 e l) = msg ei x e l := rfl

/-- Summing the products against a 0/1 column that marks degree l keeps exactly the columns of degree l. -/
theorem sum_mul_mark (t P : Fin 25 → EReal) (l : Fin 5) (hP : ∀ k, P k = if deg k = l then 1 else 0) :
    ∑ k : Fin 25, t k * P k = ∑ k : Fin 25, if deg k = l then t k else (0 : EReal) := by
  refine Finset.sum_congr rfl fun k _ => ?_
  rw [hP k]
  by_cases h : deg k = l
  · rw [if_pos h, if_pos h, mul_one]
  · rw [if_neg h, if_neg h, mul_zero]

/-- Summing a contiguous stretch of w columns starting at column off, when that stretch is exactly the columns of
    degree l, is the sum over all columns of the terms of degree l. -/
theorem sum_stretch (t : Fin 25 → EReal) (l : Fin 5) (off w : ℕ) (f : Fin w → Fin 25)
    (hf : ∀ q, (f q).val = off + q.val) (hseg : ∀ k : Fin 25, deg k = l ↔ off ≤ k.val ∧ k.val < off + w) :
    ∑ q : Fin w, t (f q) = ∑ k : Fin 25, if deg k = l then t k else (0 : EReal) := by
  rw [← Finset.sum_filter]
  refine Finset.sum_bij (fun q _ => f q) (fun q _ => ?_) (fun a _ b _ h => ?_) (fun k hk => ?_) (fun _ _ => rfl)
  · rw [Finset.mem_filter]
    refine ⟨Finset.mem_univ _, (hseg (f q)).mpr ?_⟩
    have := hf q; have := q.isLt; omega
  · apply Fin.ext
    have h1 := hf a; have h2 := hf b; rw [h] at h1; omega
  · have hk' := (hseg k).mp (Finset.mem_filter.mp hk).2
    refine ⟨⟨k.val - off, by omega⟩, Finset.mem_univ _, Fin.ext ?_⟩
    rw [hf]; show off + (k.val - off) = k.val; omega

end Cert.EdgeMsg

end
-- ==== Proof.KernelBody.lean ====
/-
  What the kernel body leaves in its output block, entry by entry.

  The body multiplies its two [3200 × 25] input blocks entry by entry and, for each degree l, sums the stretch of
  2l + 1 columns starting at column l² along the row, giving a [3200 × 1] column; the five columns side by side are the
  [3200 × 5] output block. Entry (r, l) of the block is therefore the sum over the columns of degree l of the products in
  row r — the same sum as the one taken over all 25 columns with the other degrees' terms replaced by zero.
-/
import proofs.«404434_j27384711479756_4_alg».proof.Proof.Gen.KernelIdeal.Value
import proofs.«404434_j27384711479756_4_alg».proof.Proof.Spec
import Idealize.ShloMosaic.PureOps.Ideal.Laws
import Idealize.ShloMosaic.Lib.Pipeline.Value
import Idealize.ShloMosaic.Lib.ValueIdx

noncomputable section

open scoped BigOperators

namespace Cert.EdgeMsg.KBody

open Idealize.ShloMosaic Idealize.ShloMosaic.ValueIdx Cert.EdgeMsg

/-- A stretch of w columns starting at column off, summed along the row and kept as a one-column array: its entry in
    row r is the sum of the row's entries in those columns. -/
theorem stretch_sum (w off : ℕ) (T : FVec Ideal ⟨2, ![3200, 25]⟩ .f32)
    (hs : (⟨2, ![3200, 25]⟩ : Shape).Slices ![0, off] ⟨2, ![3200, w]⟩)
    (hr : (⟨2, ![3200, w]⟩ : Shape).Reduces [1] ⟨1, ![3200]⟩)
    (hc : (⟨1, ![3200]⟩ : Shape).ShapeCasts ⟨2, ![3200, 1]⟩)
    (hφ : FKind.Formats .f32) (hacc : (0x00000000#32 : BitVec FTy.f32.bits) = FKind.add.neutral .f32 hφ)
    (hoff : off + w ≤ 25) (r : Fin 3200) (z : Fin 1) :
    shapeCast ⟨2, ![3200, 1]⟩ (multiReduction .add [1] ⟨1, ![3200]⟩
        (extractStridedSlice ⟨2, ![3200, w]⟩ ![0, off] T hs) 0x00000000#32 hr hφ hacc) hc (ix2 r z)
      = ∑ q : Fin w, T (ix2 r ⟨off + q.val, by have := q.isLt; omega⟩) := by
  refine (shapeCast_apply _ hc (ix2 r z) (ix1 r) ?_).trans ?_
  · rw [Shape.rowMajor_val_one, Shape.rowMajor_val_two]
    show r.val = r.val * 1 + z.val
    have := z.isLt; omega
  refine (Ideal.multiReduction_add_single _ _ hr hφ hacc (ix1 r)).trans ?_
  show ∑ q : Fin w, _ = _
  refine Finset.sum_congr rfl fun q _ => ?_
  refine extractStridedSlice_apply _ T hs _ _ (fun a => ?_)
  match a with
  | ⟨0, _⟩ => show r.val = 0 + r.val; omega
  | ⟨1, _⟩ => rfl

open Cert.KernelIdeal Cert.KernelIdeal.Gen

/-- One degree's column of the output block: the stretch of w columns starting at column off of the entrywise product
    of the two input blocks, summed along the row. When that stretch is exactly the columns of degree l, its entry in
    row r is the sum over all columns of the products of degree l. -/
theorem degree_column (w off : ℕ) (P0 P1 : FVec Ideal S3200x25 .f32)
    (hs : S3200x25.Slices ![0, off] ⟨2, ![3200, w]⟩)
    (hr : (⟨2, ![3200, w]⟩ : Shape).Reduces [1] S3200)
    (hc : S3200.ShapeCasts S3200x1)
    (hφ : FKind.Formats .f32) (hacc : (0x00000000#32 : BitVec FTy.f32.bits) = FKind.add.neutral .f32 hφ)
    (hoff : off + w ≤ 25) (r : Fin 3200) (z : Fin 1) (l : Fin 5)
    (hseg : ∀ k : Fin 25, deg k = l ↔ off ≤ k.val ∧ k.val < off + w) :
    shapeCast S3200x1 (multiReduction .add [1] S3200
        (extractStridedSlice ⟨2, ![3200, w]⟩ ![0, off]
          (mulf (F := Ideal) (shapeCast S3200x25 P0 shapeCasts_S3200x25_S3200x25) (shapeCast S3200x25 P1 shapeCasts_S3200x25_S3200x25)) hs)
        0x00000000#32 hr hφ hacc) hc (ix2 r z)
      = ∑ k : Fin 25, if deg k = l then P0 (ix2 r k) * P1 (ix2 r k) else (0 : EReal) := by
  refine (stretch_sum w off _ hs hr hc hφ hacc hoff r z).trans ?_
  rw [shapeCast_self, shapeCast_self]
  exact sum_stretch (fun k => P0 (ix2 r k) * P1 (ix2 r k)) l off w
    (fun q => ⟨off + q.val, by have := q.isLt; omega⟩) (fun _ => rfl) hseg

/-- Entry (r, l) of the block the body leaves: the sum over the columns k of degree l of the products of the two input
    blocks' entries (r, k). -/
theorem block_apply (P0 P1 : FVec Ideal S3200x25 .f32) (r : Fin 3200) (l : Fin 5) :
    Cert.KernelIdeal.Value.E2 (F := Ideal) P0 P1 (ix2 r l)
      = ∑ k : Fin 25, if deg k = l then P0 (ix2 r k) * P1 (ix2 r k) else (0 : EReal) := by
  have hy : Cert.KernelIdeal.Value.ix2_0 (ix2 r l) = ix2 r (0 : Fin 1) := by
    funext a; match a with | ⟨0, _⟩ => rfl | ⟨1, _⟩ => rfl
  show (Cert.KernelIdeal.Value.Cat2_0 (F := Ideal) P0 P1 (Cert.KernelIdeal.Value.csel2_0 (ix2 r l)))
    (Cert.KernelIdeal.Value.ix2_0 (ix2 r l)) = _
  rw [hy]
  match l with
  | ⟨0, h⟩ =>
    exact degree_column 1 0 P0 P1 _ _ _ _ _ (by omega) r 0 ⟨0, h⟩ (fun k => (deg_eq_iff k ⟨0, h⟩).trans
      (by show (0 * 0 ≤ k.val ∧ k.val < (0 + 1) * (0 + 1)) ↔ (0 ≤ k.val ∧ k.val < 0 + 1); omega))
  | ⟨1, h⟩ =>
    exact degree_column 3 1 P0 P1 _ _ _ _ _ (by omega) r 0 ⟨1, h⟩ (fun k => (deg_eq_iff k ⟨1, h⟩).trans
      (by show (1 * 1 ≤ k.val ∧ k.val < (1 + 1) * (1 + 1)) ↔ (1 ≤ k.val ∧ k.val < 1 + 3); omega))
  | ⟨2, h⟩ =>
    exact degree_column 5 4 P0 P1 _ _ _ _ _ (by omega) r 0 ⟨2, h⟩ (fun k => (deg_eq_iff k ⟨2, h⟩).trans
      (by show (2 * 2 ≤ k.val ∧ k.val < (2 + 1) * (2 + 1)) ↔ (4 ≤ k.val ∧ k.val < 4 + 5); omega))
  | ⟨3, h⟩ =>
    exact degree_column 7 9 P0 P1 _ _ _ _ _ (by omega) r 0 ⟨3, h⟩ (fun k => (deg_eq_iff k ⟨3, h⟩).trans
      (by show (3 * 3 ≤ k.val ∧ k.val < (3 + 1) * (3 + 1)) ↔ (9 ≤ k.val ∧ k.val < 9 + 7); omega))
  | ⟨4, h⟩ =>
    exact degree_column 9 16 P0 P1 _ _ _ _ _ (by omega) r 0 ⟨4, h⟩ (fun k => (deg_eq_iff k ⟨4, h⟩).trans
      (by show (4 * 4 ≤ k.val ∧ k.val < (4 + 1) * (4 + 1)) ↔ (16 ≤ k.val ∧ k.val < 16 + 9); omega))

/-- The block the body leaves from two staged input blocks, entry (r, l): the degree-l sum of the products in row r. -/
theorem block_eq (X0 X1 : Vec Ideal S3200x25 .f32) (r : Fin 3200) (l : Fin 5) :
    out0_2 (F := Ideal) X0 X1 (ix2 r l)
      = ∑ k : Fin 25, if deg k = l then X0 (ix2 r k) * X1 (ix2 r k) else (0 : EReal) := by
  have hz : (![0, 0] : Fin 2 → Nat) = fun _ => 0 := funext fun a => by fin_cases a <;> rfl
  have h0 : View.ld X0 r0_0 = X0 := View.ld_unit_zero (Val := Elt Ideal) (S := S3200x25) (e := .f32) hz _ X0
  have h1 : View.ld X1 r0_0 = X1 := View.ld_unit_zero (Val := Elt Ideal) (S := S3200x25) (e := .f32) hz _ X1
  unfold out0_2
  rw [h0, h1]
  exact (Cert.KernelIdeal.Value.canon2_eq X0 X1 (ix2 r l)).trans (block_apply X0 X1 r l)

end Cert.EdgeMsg.KBody

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«404434_j27384711479756_4_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.KernelHost.lean ====
/-
  What the kernel's two input arrays hold when the region is entered: row e of each is the feature row of the node the
  edge's word names, the word read signed and clamped to the table's rows.

  Each array is made from one row of the edge list in three steps. The row's words are clamped to [0, 99999], read
  signed. The table's rows are then taken at the clamped words, an index out of the table's range wrapped once if
  negative and the row filled with a not-a-number constant if still out of range. A clamped word is never negative
  and never past the last row, so nothing is wrapped and nothing is filled: every entry is the table's entry at the
  clamped word, and the clamped word names the same row as the word itself.
-/
import proofs.«404434_j27384711479756_4_alg».proof.Proof.Gen.KernelIdeal.Frame
import proofs.«404434_j27384711479756_4_alg».proof.Proof.Spec
import proofs.«404434_j27384711479756_4_alg».proof.Proof.LibGatherClamp
import Idealize.ShloMosaic.Lib.StableHlo.Run
import Idealize.ShloMosaic.Lib.Pipeline.Value
import Idealize.ShloMosaic.Lib.ValueLayout

noncomputable section

namespace Cert.EdgeMsg.KHost

open Idealize.ShloMosaic Idealize.ShloMosaic.TcCoe Idealize.SL.Sem Idealize.ShloMosaic.ValueIdx
open Cert.KernelIdeal Cert.KernelIdeal.Gen Cert.EdgeMsg

/-! ## One word -/

theorem toInt_maxsi_zero (w : BitVec 32) : (IntOp.maxsi 0#32 w).toInt = max 0 w.toInt := by
  have h0 : (0#32).toInt = 0 := by decide
  unfold IntOp.maxsi BitVec.slt
  rw [h0]
  by_cases h1 : w.toInt < 0
  · rw [if_pos (by simpa using h1), h0]; omega
  · rw [if_neg (by simpa using h1)]; omega

theorem toInt_minsi_last (y : BitVec 32) : (IntOp.minsi 99999#32 y).toInt = min 99999 y.toInt := by
  have h9 : (99999#32).toInt = 99999 := by decide
  unfold IntOp.minsi BitVec.slt
  rw [h9]
  by_cases h2 : 99999 < y.toInt
  · rw [if_pos (by simpa using h2), h9]; omega
  · rw [if_neg (by simpa using h2)]; omega

/-- A node word clamped to the table's rows: at least 0 and at most 99999, both read signed. -/
def clip (w : BitVec 32) : BitVec 32 := IntOp.minsi 99999#32 (IntOp.maxsi 0#32 w)

theorem toInt_clip (w : BitVec 32) : (clip w).toInt = min 99999 (max 0 w.toInt) := by
  unfold clip; rw [toInt_minsi_last, toInt_maxsi_zero]

theorem clip_nonneg (w : BitVec 32) : 0 ≤ (clip w).toInt := by rw [toInt_clip]; omega
theorem clip_le (w : BitVec 32) : (clip w).toInt ≤ 99999 := by rw [toInt_clip]; omega

/-- The clamped word names the same table row as the word itself. -/
theorem clip_row (w : BitVec 32) : min (clip w).toInt.toNat (100000 - 1) = (rowOf w).val := by
  rw [rowOf_val, toInt_clip]; omega

/-- A clamped word is not negative, -/
theorem clip_not_slt (w : BitVec 32) : IntOp.cmpi .slt (clip w) 0#32 = 0#1 := by
  have h0 : (0#32).toInt = 0 := by decide
  have h := clip_nonneg w
  show BitVec.ofBool ((clip w).slt 0#32) = 0#1
  unfold BitVec.slt
  rw [h0, decide_eq_false (by omega)]; rfl

/-- it is at least 0, -/
theorem clip_sge (w : BitVec 32) : IntOp.cmpi .sge (clip w) 0#32 = 1#1 := by
  have h0 : (0#32).toInt = 0 := by decide
  have h := clip_nonneg w
  show BitVec.ofBool ((0#32).sle (clip w)) = 1#1
  unfold BitVec.sle
  rw [h0, decide_eq_true h]; rfl

/-- and at most the last row. -/
theorem clip_sle (w : BitVec 32) : IntOp.cmpi .sle (clip w) 99999#32 = 1#1 := by
  have h9 : (99999#32).toInt = 99999 := by decide
  have h := clip_le w
  show BitVec.ofBool ((clip w).sle 99999#32) = 1#1
  unfold BitVec.sle
  rw [h9, decide_eq_true h]; rfl

/-! ## A conjunction of ones -/

/-- A conjunction of bits that are all 1, started at 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by conjunction, started at 1, of bits that are all 1 is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

/-! ## The arrays as terms -/

/-- Row `o` of the edge list as a vector of 3200000 words. -/
def flatRow (o : Nat) (hs : S2x3200000.Slices ![o, 0] S1x3200000) (ei : IVec S2x3200000 32) : IVec S3200000 32 :=
  fun i => shapeCast S3200000 (extractStridedSlice S1x3200000 ![o, 0] ei hs) Facts₀.shapeCasts_S1x3200000_S3200000 i

theorem flatRow_apply (o : Nat) (hs : S2x3200000.Slices ![o, 0] S1x3200000) (ei : IVec S2x3200000 32) (r : Fin 2)
    (hr : r.val = o) (e : Fin 3200000) : flatRow o hs ei (ix1 e) = ei (ix2 r e) := by
  show shapeCast S3200000 (extractStridedSlice S1x3200000 ![o, 0] ei hs) Facts₀.shapeCasts_S1x3200000_S3200000 (ix1 e) = _
  rw [shapeCast_1a_a_apply]
  exact slice2_axis0_apply o ei hs (0 : Fin 1) e r (by rw [hr]; rfl)

/-- The words clamped to the table's rows. -/
def clipV (w : IVec S3200000 32) : IVec S3200000 32 :=
  minsi (broadcastInDim S3200000 ![] Facts₀.bcast_S_S3200000 (constantI S_ 32 99999#32))
    (maxsi (broadcastInDim S3200000 ![] Facts₀.bcast_S_S3200000 (constantI S_ 32 0#32)) w)

theorem clipV_apply (w : IVec S3200000 32) (i : S3200000.Idx) : clipV w i = clip (w i) := rfl

/-- A negative index wrapped once around the table. -/
def wrapV (c : IVec S3200000 32) : IVec S3200000 32 :=
  select (cmpi .slt c (broadcastInDim S3200000 ![] Facts₀.bcast_S_S3200000 (constantI S_ 32 0#32)))
    (addi c (broadcastInDim S3200000 ![] Facts₀.bcast_S_S3200000 (constantI S_ 32 100000#32))) c

theorem wrapV_clipV_apply (w : IVec S3200000 32) (i : S3200000.Idx) : wrapV (clipV w) i = clip (w i) := by
  show Scalar.select (IntOp.cmpi .slt (clip (w i)) 0#32) (IntOp.addi (clip (w i)) 100000#32) (clip (w i)) = _
  rw [clip_not_slt, select_zero]

/-- The indices as a column. -/
def colV (t : IVec S3200000 32) : IVec S3200000x1 32 := broadcastInDim S3200000x1 ![0] Facts₀.bcast_S3200000_S3200000x1_0 t

theorem colV_apply (t : IVec S3200000 32) (e : Fin 3200000) : colV t (ix2 e (0 : Fin 1)) = t (ix1 e) :=
  broadcastInDim_apply _ _ t _ _ (fun a => by match a with | ⟨0, _⟩ => rfl)

/-- Every entry of the column is an entry of the vector. -/
theorem colV_mem (t : IVec S3200000 32) (j : S3200000x1.Idx) : ∃ i, colV t j = t i := ⟨_, rfl⟩

/-- The index is inside the table: at least 0 and at most 99999. -/
def inbV (col : IVec S3200000x1 32) : IVec S3200000x1 1 :=
  andi (cmpi .sge col (broadcastInDim S3200000x1 ![] Facts₀.bcast_S_S3200000x1 (constantI S_ 32 0#32)))
    (cmpi .sle col (broadcastInDim S3200000x1 ![0, 1] Facts₀.bcast_S1x1_S3200000x1_0_1
      (broadcastInDim S1x1 ![1] Facts₀.bcast_S1_S1x1_1 (constantI S1 32 99999#32))))

theorem inbV_apply (col : IVec S3200000x1 32) (j : S3200000x1.Idx) :
    inbV col j = IntOp.andi (IntOp.cmpi .sge (col j) 0#32) (IntOp.cmpi .sle (col j) 99999#32) := rfl

/-- The rows of `x` taken at the words of `w` clamped: an index outside the table after one wrap fills its row with
    a constant. -/
def takeClamped (x : FVec Ideal S100000x25 .f32) (w : IVec S3200000 32) : FVec Ideal S3200000x25 .f32 :=
  select
    (broadcastInDim S3200000x25 ![0] Facts₀.bcast_S3200000_S3200000x25_0
      (Host.reduce IntOp.andi (inbV (colV (wrapV (clipV w)))) (constantI S_ 1 1#1) Facts₀.reducesTo_S3200000x1_S3200000_d1 Facts₀.h_S_))
    (Host.gather gather_S100000x25_S3200000x1_S3200000x25_1_0_n_n_0_1_125 x (colV (wrapV (clipV w))))
    (broadcastInDim S3200000x25 ![] Facts₀.bcast_S_S3200000x25 (constant (F := Ideal) S_ .f32 0x7FC00000#32))

/-- Nothing is wrapped and nothing is filled: entry (e, k) is the table's entry at the row the word names. -/
theorem takeClamped_apply (x : FVec Ideal S100000x25 .f32) (w : IVec S3200000 32) (e : Fin 3200000) (k : Fin 25) :
    takeClamped x w (ix2 e k) = x (ix2 (rowOf (w (ix1 e))) k) := by
  have hin : ∀ j, inbV (colV (wrapV (clipV w))) j = 1#1 := fun j => by
    obtain ⟨i, hi⟩ := colV_mem (wrapV (clipV w)) j
    rw [inbV_apply, hi, wrapV_clipV_apply, clip_sge, clip_sle]; rfl
  have hmask : ∀ j, Host.reduce IntOp.andi (inbV (colV (wrapV (clipV w)))) (constantI S_ 1 1#1)
      Facts₀.reducesTo_S3200000x1_S3200000_d1 Facts₀.h_S_ j = 1#1 :=
    reduce_andi_one _ _ _ _ hin (fun _ => rfl)
  have hcol : colV (wrapV (clipV w)) (ix2 e (0 : Fin 1)) = clip (w (ix1 e)) := by
    rw [colV_apply, wrapV_clipV_apply]
  have hrow : (⟨min (colV (wrapV (clipV w)) (ix2 e (0 : Fin 1))).toInt.toNat (100000 - 1), by omega⟩ : Fin 100000)
      = rowOf (w (ix1 e)) := Fin.ext (by show min _ _ = _; rw [hcol]; exact clip_row _)
  unfold takeClamped
  rw [select_apply]
  have hb : broadcastInDim S3200000x25 ![0] Facts₀.bcast_S3200000_S3200000x25_0
      (Host.reduce IntOp.andi (inbV (colV (wrapV (clipV w)))) (constantI S_ 1 1#1) Facts₀.reducesTo_S3200000x1_S3200000_d1 Facts₀.h_S_)
      (ix2 e k) = 1#1 := hmask _
  rw [hb, select_one,
    Cert.Gcn.GatherClamp.gather2_clamp_apply (by omega) _ rfl rfl rfl rfl rfl x _ e k, hrow]

/-! ## The two arrays -/

/-- Contents carried to a buffer's own type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

variable (m : (ℓ : Loc nD τ sig) → Buf (Elt Ideal) ℓ)

set_option maxRecDepth 16384 in
set_option maxHeartbeats 4000000 in
/-- Entry (e, k) of the first gathered array is the feature k of the node named by edge_index[0, e]. -/
theorem V_rows (c : Dev nD) (e : Fin 3200000) (k : Fin 25) :
    (V (F := Ideal) m c main_v6 : S3200000x25.Idx → EReal) (ix2 e k)
      = (m ((c : Thread nD τ).loc main_arg1) : S100000x25.Idx → EReal)
          (ix2 (rowOf ((m ((c : Thread nD τ).loc main_arg0) : S2x3200000.Idx → BitVec 32) (ix2 (0 : Fin 2) e))) k) := by
  have h : (V (F := Ideal) m c main_v6 : S3200000x25.Idx → EReal)
      = takeClamped (m ((c : Thread nD τ).loc main_arg1))
          (flatRow 0 Facts₀.slices_S2x3200000_S1x3200000_0_0 (m ((c : Thread nD τ).loc main_arg0))) := by
    dsimp only [Gen.V]
    simp only [Gen.hostOps0, Gen.hostOps0_1, Gen.hostOps0_2, Gen.hostOps0_3, Gen.hostOps0_4, Gen.hostOps0_5,
      List.flatten_cons, List.flatten_nil, List.append_nil, List.cons_append, List.nil_append]
    -- each operation's result read at its own buffer; a value carried to a buffer's type and back is the value
    after_results_simp
    simp only [ofBuf_toBuf]
    refine (cast_eq _ _).trans ?_
    rfl
  rw [h, takeClamped_apply, flatRow_apply 0 _ _ (0 : Fin 2) rfl]

set_option maxRecDepth 16384 in
set_option maxHeartbeats 4000000 in
/-- Entry (e, k) of the second gathered array is the feature k of the node named by edge_index[1, e]. -/
theorem V_cols (c : Dev nD) (e : Fin 3200000) (k : Fin 25) :
    (V (F := Ideal) m c main_v7 : S3200000x25.Idx → EReal) (ix2 e k)
      = (m ((c : Thread nD τ).loc main_arg1) : S100000x25.Idx → EReal)
          (ix2 (rowOf ((m ((c : Thread nD τ).loc main_arg0) : S2x3200000.Idx → BitVec 32) (ix2 (1 : Fin 2) e))) k) := by
  have h : (V (F := Ideal) m c main_v7 : S3200000x25.Idx → EReal)
      = takeClamped (m ((c : Thread nD τ).loc main_arg1))
          (flatRow 1 Facts₀.slices_S2x3200000_S1x3200000_1_0 (m ((c : Thread nD τ).loc main_arg0))) := by
    dsimp only [Gen.V]
    simp only [Gen.hostOps0, Gen.hostOps0_1, Gen.hostOps0_2, Gen.hostOps0_3, Gen.hostOps0_4, Gen.hostOps0_5,
      List.flatten_cons, List.flatten_nil, List.append_nil, List.cons_append, List.nil_append]
    -- each operation's result read at its own buffer; a value carried to a buffer's type and back is the value
    after_results_simp
    simp only [ofBuf_toBuf]
    refine (cast_eq _ _).trans ?_
    rfl
  rw [h, takeClamped_apply, flatRow_apply 1 _ _ (1 : Fin 2) rfl]

end Cert.EdgeMsg.KHost

end
-- ==== Proof.KernelGrid.lean ====
/-
  The grid of the kernel's one region: 1000 points, point t staging rows 3200·t … 3200·t + 3199 of each [E × 25] input
  array and of the [E × 5] output array (all columns). So entry (p, k) of a block at point t is entry (3200·t + p, k) of
  its array, and the output's 1000 blocks tile it: row e lies in the block of point e / 3200.
-/
import proofs.«404434_j27384711479756_4_alg».proof.Proof.Gen.KernelIdeal.Value
import Idealize.ShloMosaic.Lib.Pipeline.Value
import Idealize.ShloMosaic.Lib.ValueIdx

noncomputable section

namespace Cert.EdgeMsg.KGrid

open Cert.KernelIdeal Cert.KernelIdeal.Gen Idealize.ShloMosaic Idealize.ShloMosaic.TcCoe Idealize.SL.Sem
open Idealize.ShloMosaic.ValueIdx

theorem zero_offsets : (![0, 0] : Fin 2 → Nat) = fun _ => 0 := funext fun a => by fin_cases a <;> rfl

/-- Over the 1000 grid points: every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Entry (p, k) of the first input's block at point t sits at (3200·t + p, k) of its array. -/
theorem emb0 (t : Fin cfg0.N) (p : Fin 3200) (k : Fin 25) (he : t.val * 3200 + p.val < 3200000) :
    ((cfg0.win 0).blk t).view.emb (ix2 p k) = ix2 (⟨t.val * 3200 + p.val, he⟩ : Fin 3200000) k := by
  obtain ⟨e0, e1, -⟩ := idx_facts t
  funext a; apply Fin.ext
  match a with
  | ⟨0, _⟩ => show win0_0.index t (0 : Fin 2) * 3200 + 1 * p.val = t.val * 3200 + p.val; rw [e0]; omega
  | ⟨1, _⟩ => show win0_0.index t (1 : Fin 2) * 25 + 1 * k.val = k.val; rw [e1]; omega

/-- Entry (p, k) of the second input's block at point t sits at (3200·t + p, k) of its array. -/
theorem emb1 (t : Fin cfg0.N) (p : Fin 3200) (k : Fin 25) (he : t.val * 3200 + p.val < 3200000) :
    ((cfg0.win 1).blk t).view.emb (ix2 p k) = ix2 (⟨t.val * 3200 + p.val, he⟩ : Fin 3200000) k := by
  obtain ⟨-, -, e2, e3, -⟩ := idx_facts t
  funext a; apply Fin.ext
  match a with
  | ⟨0, _⟩ => show win0_1.index t (0 : Fin 2) * 3200 + 1 * p.val = t.val * 3200 + p.val; rw [e2]; omega
  | ⟨1, _⟩ => show win0_1.index t (1 : Fin 2) * 25 + 1 * k.val = k.val; rw [e3]; omega

/-- Entry (p, l) of the output's block at point t sits at (3200·t + p, l) of the output array. -/
theorem emb2 (t : Fin cfg0.N) (p : Fin 3200) (l : Fin 5) (he : t.val * 3200 + p.val < 3200000) :
    ((cfg0.win 2).blk t).view.emb (ix2 p l) = ix2 (⟨t.val * 3200 + p.val, he⟩ : Fin 3200000) l := by
  obtain ⟨-, -, -, -, e4, e5⟩ := idx_facts t
  funext a; apply Fin.ext
  match a with
  | ⟨0, _⟩ => show win0_2.index t (0 : Fin 2) * 3200 + 1 * p.val = t.val * 3200 + p.val; rw [e4]; omega
  | ⟨1, _⟩ => show win0_2.index t (1 : Fin 2) * 5 + 1 * l.val = l.val; rw [e5]; omega

/-- An index of the output array lies in point t's block iff each coordinate lies in the block's range on its axis. -/
theorem mem_blk (t : Fin cfg0.N) (i : S3200000x5.Idx) :
    i ∈ ((cfg0.win 2).blk t).view.set ↔ ∀ a : Fin 2, win0_2.index t a * S3200x5.size a ≤ (i a).val
      ∧ (i a).val < win0_2.index t a * S3200x5.size a + S3200x5.size a := by
  show i ∈ ((View.whole main_v8).slice (win0_2.rect t)).set ↔ _
  rw [View.set_slice_whole, Rect.mem_set_unit]
  exact Iff.rfl

/-- Every index of the output array lies in some point's block: row e in the block of point e / 3200. -/
theorem cover (i : S3200000x5.Idx) :
    ∃ t : Fin cfg0.N, (cfg0.win 2).flush t = true ∧ i ∈ ((cfg0.win 2).blk t).view.set := by
  have hi0 : (i 0).val < 3200000 := (i 0).isLt
  have hi1 : (i 1).val < 5 := (i 1).isLt
  have hq : (i 0).val / 3200 < 1000 := by omega
  refine ⟨⟨(i 0).val / 3200, hq⟩, flush0_2 _, ?_⟩
  rw [mem_blk]
  obtain ⟨-, -, -, -, e4, e5⟩ := idx_facts ⟨(i 0).val / 3200, hq⟩
  intro a
  match a with
  | ⟨0, _⟩ =>
    show win0_2.index ⟨(i 0).val / 3200, hq⟩ (0 : Fin 2) * 3200 ≤ (i 0).val
      ∧ (i 0).val < win0_2.index ⟨(i 0).val / 3200, hq⟩ (0 : Fin 2) * 3200 + 3200
    rw [e4]; show (i 0).val / 3200 * 3200 ≤ (i 0).val ∧ (i 0).val < (i 0).val / 3200 * 3200 + 3200; omega
  | ⟨1, _⟩ =>
    show win0_2.index ⟨(i 0).val / 3200, hq⟩ (1 : Fin 2) * 5 ≤ (i 1).val
      ∧ (i 1).val < win0_2.index ⟨(i 0).val / 3200, hq⟩ (1 : Fin 2) * 5 + 5
    rw [e5]; omega

end Cert.EdgeMsg.KGrid

end
-- ==== Proof.KernelValue.lean ====
/-
  The kernel's output array after the run is the message array.

  Entry (p, l) of the block written at grid point t is the degree-l sum of the products in row p of the two staged
  blocks; row p of a staged block is row 3200·t + p of its gathered array, which holds the feature row of the node the
  edge names. So the block written at point t is the block of the message array at the same rows, and since the 1000
  blocks tile the output, the output ends as the message array.
-/
import proofs.«404434_j27384711479756_4_alg».proof.Proof.Gen.KernelIdeal.Value
import proofs.«404434_j27384711479756_4_alg».proof.Proof.Spec
import proofs.«404434_j27384711479756_4_alg».proof.Proof.KernelBody
import proofs.«404434_j27384711479756_4_alg».proof.Proof.KernelHost
import proofs.«404434_j27384711479756_4_alg».proof.Proof.KernelGrid
import Idealize.ShloMosaic.Lib.Pipeline.Value
import Idealize.ShloMosaic.Lib.ValueIdx

noncomputable section

open scoped BigOperators

namespace Cert.EdgeMsg.KValue

open Cert.KernelIdeal Cert.KernelIdeal.Gen Idealize.ShloMosaic Idealize.ShloMosaic.TcCoe Idealize.SL.Sem
open Idealize.ShloMosaic.ValueIdx Cert.EdgeMsg
open Idealize.ShloMosaic.Pipeline (Dat)

variable (m : (ℓ : Loc nD τ sig) → Buf (Elt Ideal) ℓ) (ρ : Dev nD → PrngReg)

/-- The edge list as launched. -/
abbrev edges (c : Dev nD) : IVec ⟨2, ![2, 3200000]⟩ 32 := m ((c : Thread nD τ).loc main_arg0)
/-- The feature table as launched. -/
abbrev feats (c : Dev nD) : FVec Ideal ⟨2, ![100000, 25]⟩ .f32 := m ((c : Thread nD τ).loc main_arg1)

/-- Entry (p, k) of the first input window's block at point t, read off any array, is the array's entry
    (3200·t + p, k). -/
theorem read_blk0 (A : S3200000x25.Idx → EReal) (t : Fin cfg0.N) (p : Fin 3200) (k : Fin 25)
    (he : t.val * 3200 + p.val < 3200000) :
    ((cfg0.win 0).blk t).view.read (Elt Ideal) A (ix2 p k) = A (ix2 (⟨t.val * 3200 + p.val, he⟩ : Fin 3200000) k) := by
  show A (((cfg0.win 0).blk t).view.emb (ix2 p k)) = _
  rw [KGrid.emb0 t p k he]

/-- Likewise for the second input window. -/
theorem read_blk1 (A : S3200000x25.Idx → EReal) (t : Fin cfg0.N) (p : Fin 3200) (k : Fin 25)
    (he : t.val * 3200 + p.val < 3200000) :
    ((cfg0.win 1).blk t).view.read (Elt Ideal) A (ix2 p k) = A (ix2 (⟨t.val * 3200 + p.val, he⟩ : Fin 3200000) k) := by
  show A (((cfg0.win 1).blk t).view.emb (ix2 p k)) = _
  rw [KGrid.emb1 t p k he]

/-- Row p of the first staged block at point t is the feature row of the first node of edge 3200·t + p. -/
theorem in0_apply (c : Dev nD) (t : Fin cfg0.N) (p : Fin 3200) (k : Fin 25) (he : t.val * 3200 + p.val < 3200000) :
    (iblk m c 0 t : S3200x25.Idx → EReal) (ix2 p k)
      = feats m c (ix2 (rowOf (edges m c (ix2 (0 : Fin 2) (⟨t.val * 3200 + p.val, he⟩ : Fin 3200000)))) k) := by
  unfold iblk
  exact (read_blk0 (V m c (Pipeline.arrRef spec0 0)) t p k he).trans (KHost.V_rows m c ⟨t.val * 3200 + p.val, he⟩ k)

/-- Row p of the second staged block at point t is the feature row of the second node of edge 3200·t + p. -/
theorem in1_apply (c : Dev nD) (t : Fin cfg0.N) (p : Fin 3200) (k : Fin 25) (he : t.val * 3200 + p.val < 3200000) :
    (iblk m c 1 t : S3200x25.Idx → EReal) (ix2 p k)
      = feats m c (ix2 (rowOf (edges m c (ix2 (1 : Fin 2) (⟨t.val * 3200 + p.val, he⟩ : Fin 3200000)))) k) := by
  unfold iblk
  exact (read_blk1 (V m c (Pipeline.arrRef spec0 1)) t p k he).trans (KHost.V_cols m c ⟨t.val * 3200 + p.val, he⟩ k)

/-- Entry (p, l) of the output window's block at point t, read off any array, is the array's entry (3200·t + p, l). -/
theorem read_blk2 (A : S3200000x5.Idx → EReal) (t : Fin cfg0.N) (p : Fin 3200) (l : Fin 5)
    (he : t.val * 3200 + p.val < 3200000) :
    ((cfg0.win 2).blk t).view.read (Elt Ideal) A (ix2 p l) = A (ix2 (⟨t.val * 3200 + p.val, he⟩ : Fin 3200000) l) := by
  show A (((cfg0.win 2).blk t).view.emb (ix2 p l)) = _
  rw [KGrid.emb2 t p l he]

/-- What point t writes back is block t of the message array. -/
theorem flushed_eq (c : Dev nD) (t : Fin cfg0.N) :
    (dats m 0 c).flushed 2 t = ((cfg0.win 2).blk t).view.read (Elt Ideal) (G (edges m c) (feats m c)) := by
  rw [Cert.KernelIdeal.Value.flushed2]
  refine funext fun (y : S3200x5.Idx) => ?_
  obtain ⟨p, l, rfl⟩ : ∃ (p : Fin 3200) (l : Fin 5), y = ix2 p l := ⟨y 0, y 1, eq_ix2 y⟩
  have ht : t.val < 1000 := t.isLt
  have he : t.val * 3200 + p.val < 3200000 := by have := p.isLt; omega
  refine Eq.trans ?_ (read_blk2 (G (edges m c) (feats m c)) t p l he).symm
  rw [G_apply]
  show out0_2 (iblk m c 0 t) (iblk m c 1 t) (ix2 p l) = _
  refine (KBody.block_eq _ _ p l).trans ?_
  unfold msg
  refine Finset.sum_congr rfl fun k _ => ?_
  rw [in0_apply m c t p k he, in1_apply m c t p k he]
/-- The output array after the run is the message array of the arguments as launched. -/
theorem final (c : Dev nD) : (dats m 0 c).arrAt 2 cfg0.N = G (edges m c) (feats m c) :=
  (dats m 0 c).arrAt_eq_of_cover 2 (G (edges m c) (feats m c)) (fun t _ => flushed_eq m c t) KGrid.cover

/-- Every weakly fair execution of the kernel program terminates with the output array at the message array of the
    arguments, and the arguments unchanged. -/
theorem run : θ_run defs (onTc (τ := τ) (main (F := Ideal))) ⟨m, fun _ => 0, ρ⟩ fun r => ∀ c : Dev nD,
      r.2.mem ((c : Thread nD τ).loc main_v8) = G (edges m c) (feats m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.EdgeMsg.KValue

end
-- ==== Proof.RefTerm.lean ====
/-
  The reference program's result as one term of its two arguments.

  The edge list's two rows are sliced out and flattened; each word is read NumPy's way (a negative word has the row
  count 100000 added); the feature table is gathered at those words, the two gathered arrays are multiplied entry by
  entry, and the [E × 25] product is multiplied by the constant 25 × 5 matrix of zeros and ones that marks each
  column's degree.
-/
import proofs.«404434_j27384711479756_4_alg».proof.Proof.Gen.ReferenceIdeal
import proofs.«404434_j27384711479756_4_alg».proof.Proof.Spec

noncomputable section

namespace Cert.EdgeMsg.Ref

open Idealize.ShloMosaic Cert.ReferenceIdeal Cert.ReferenceIdeal.Gen

variable {F : FTy → Type} [FloatOps F]

/-- Row 0 of the edge list, flattened: the first endpoint's word of every edge. -/
def rowWords (ei : IVec S2x3200000 32) : IVec S3200000 32 :=
  shapeCast S3200000 (extractStridedSlice S1x3200000 ![0, 0] ei slices_S2x3200000_S1x3200000_0_0) shapeCasts_S1x3200000_S3200000

/-- Row 1 of the edge list, flattened: the second endpoint's word of every edge. -/
def colWords (ei : IVec S2x3200000 32) : IVec S3200000 32 :=
  shapeCast S3200000 (extractStridedSlice S1x3200000 ![1, 0] ei slices_S2x3200000_S1x3200000_1_0) shapeCasts_S1x3200000_S3200000

/-- A negative word has the row count added; any other word is kept. -/
def wrapNeg (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- The feature table gathered at the (wrapped) words of one endpoint. -/
def gathered (x : FVec F S100000x25 .f32) (v : IVec S3200000 32) : FVec F S3200000x25 .f32 :=
  Host.gather gather_S100000x25_S3200000x1_S3200000x25_1_0_n_n_0_1_125 x
    (broadcastInDim S3200000x1 ![0] bcast_S3200000_S3200000x1_0 (wrapNeg v))

/-- The constant 25 × 5 matrix of the program. -/
def proj : FVec F S25x5 .f32 := fun i => FloatOps.ofBits .f32 (lit0 (S25x5.rowMajor i))

/-- The reference's result. -/
def refTerm (ei : IVec S2x3200000 32) (x : FVec F S100000x25 .f32) : FVec F S3200000x5 .f32 :=
  Host.dotGeneral dot_S3200000x25_S25x5_S3200000x5_1_0_0_1_n_n none
    (mulf (gathered x (rowWords ei)) (gathered x (colWords ei))) proj

end Cert.EdgeMsg.Ref

end
-- ==== Proof.RefRun.lean ====
/-
  The reference program's run: its 25 host operations in order, and what the result buffer holds after them.
-/
import proofs.«404434_j27384711479756_4_alg».proof.Proof.Gen.ReferenceIdeal
import proofs.«404434_j27384711479756_4_alg».proof.Proof.RefTerm
import Idealize.ShloMosaic.Lib.StableHlo.Run

noncomputable section

namespace Cert.EdgeMsg.Ref

open Cert.ReferenceIdeal Cert.ReferenceIdeal.Gen Idealize.ShloMosaic Idealize.ShloMosaic.TcCoe Idealize.SL.Sem Idealize.ShloMosaic.StableHlo

variable {F : FTy → Type} [FloatOps F]

/-- @main's 25 operations, in order: the constant matrix; the two rows of the edge list sliced and flattened; for
    each row the sign test, the row count added, the choice between the two, the word column and the gather; the
    entrywise product; the product with the constant matrix. -/
abbrev ops : List (HloOp τ sig (Elt F)) :=
  [ nullary main_cst (fun i => FloatOps.ofBits .f32 (lit0 (S25x5.rowMajor i))),
    unary main_arg0 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg0 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_c (constantI S_ 32 0#32),
    unary main_c main_v4 (broadcastInDim S3200000 ![] bcast_S_S3200000 : (⟨S_, .i32⟩ : BufTy).Contents (Elt F) → (⟨S3200000, .i32⟩ : BufTy).Contents (Elt F)),
    binary main_v1 main_v4 main_v5 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v6 (broadcastInDim S3200000 ![] bcast_S_S3200000 : (⟨S_, .i32⟩ : BufTy).Contents (Elt F) → (⟨S3200000, .i32⟩ : BufTy).Contents (Elt F)),
    binary main_v1 main_v6 main_v7 (addi : (⟨S3200000, .i32⟩ : BufTy).Contents (Elt F) → (⟨S3200000, .i32⟩ : BufTy).Contents (Elt F) → (⟨S3200000, .i32⟩ : BufTy).Contents (Elt F)),
    ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v8 main_v9 (broadcastInDim S3200000x1 ![0] bcast_S3200000_S3200000x1_0 : (⟨S3200000, .i32⟩ : BufTy).Contents (Elt F) → (⟨S3200000x1, .i32⟩ : BufTy).Contents (Elt F)),
    binary main_arg1 main_v9 main_v10 ((fun x i => Host.gather gather_S100000x25_S3200000x1_S3200000x25_1_0_n_n_0_1_125 x i) : (⟨S100000x25, .f32⟩ : BufTy).Contents (Elt F) → (⟨S3200000x1, .i32⟩ : BufTy).Contents (Elt F) → (⟨S3200000x25, .f32⟩ : BufTy).Contents (Elt F)),
    nullary main_c_1 (constantI S_ 32 0#32),
    unary main_c_1 main_v11 (broadcastInDim S3200000 ![] bcast_S_S3200000 : (⟨S_, .i32⟩ : BufTy).Contents (Elt F) → (⟨S3200000, .i32⟩ : BufTy).Contents (Elt F)),
    binary main_v3 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v13 (broadcastInDim S3200000 ![] bcast_S_S3200000 : (⟨S_, .i32⟩ : BufTy).Contents (Elt F) → (⟨S3200000, .i32⟩ : BufTy).Contents (Elt F)),
    binary main_v3 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v3 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v15 main_v16 (broadcastInDim S3200000x1 ![0] bcast_S3200000_S3200000x1_0 : (⟨S3200000, .i32⟩ : BufTy).Contents (Elt F) → (⟨S3200000x1, .i32⟩ : BufTy).Contents (Elt F)),
    binary main_arg1 main_v16 main_v17 ((fun x i => Host.gather gather_S100000x25_S3200000x1_S3200000x25_1_0_n_n_0_1_125 x i) : (⟨S100000x25, .f32⟩ : BufTy).Contents (Elt F) → (⟨S3200000x1, .i32⟩ : BufTy).Contents (Elt F) → (⟨S3200000x25, .f32⟩ : BufTy).Contents (Elt F)),
    binary main_v10 main_v17 main_v18 (mulf : (⟨S3200000x25, .f32⟩ : BufTy).Contents (Elt F) → (⟨S3200000x25, .f32⟩ : BufTy).Contents (Elt F) → (⟨S3200000x25, .f32⟩ : BufTy).Contents (Elt F)),
    binary main_v18 main_cst main_v19 ((fun l r => Host.dotGeneral dot_S3200000x25_S25x5_S3200000x5_1_0_0_1_n_n none l r) : (⟨S3200000x25, .f32⟩ : BufTy).Contents (Elt F) → (⟨S25x5, .f32⟩ : BufTy).Contents (Elt F) → (⟨S3200000x5, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- The result buffer after the operations, over any valuation: the operations' composed term is `refTerm` of the
    two arguments' contents (the flattened rows are the reshapes' results read index by index). -/
theorem res19 (V : Valuation τ sig (Elt F)) :
    after (ops (F := F)) V (Proc.devRef .tc main_v19) = refTerm (V (Proc.devRef .tc main_arg0)) (V (Proc.devRef .tc main_arg1)) := by
  after_results_simp
  unfold refTerm gathered wrapNeg rowWords colWords proj
  rfl

/-- No operation writes the edge list: after them it holds what it held. -/
theorem res_arg0 (V : Valuation τ sig (Elt F)) :
    after (ops (F := F)) V (Proc.devRef .tc main_arg0) = V (Proc.devRef .tc main_arg0) := by
  after_results_simp

/-- No operation writes the feature table: after them it holds what it held. -/
theorem res_arg1 (V : Valuation τ sig (Elt F)) :
    after (ops (F := F)) V (Proc.devRef .tc main_arg1) = V (Proc.devRef .tc main_arg1) := by
  after_results_simp

/-- On every device, from any memory with zero counters: every weakly fair execution of the reference's @main
    terminates, the result buffer holds `refTerm` of the two arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (res19 _),
      (h c main_arg0).trans (res_arg0 _),
      (h c main_arg1).trans (res_arg1 _)⟩)
    (run_seq scopedRefs_eq scopedSems_eq defs main (fun _ => ops) main_eq (fun _ => ops_sub) m ρ)

end Cert.EdgeMsg.Ref

end
-- ==== Proof.RefValue.lean ====
/-
  The reference's result term, entry by entry, is the message array `G` — for node words that are not negative.
-/
import proofs.«404434_j27384711479756_4_alg».proof.Proof.RefTerm
import proofs.«404434_j27384711479756_4_alg».proof.Proof.LibGatherClamp
import Idealize.ShloMosaic.PureOps.Ideal.Laws
import Idealize.ShloMosaic.Lib.Pipeline.Value

noncomputable section

namespace Cert.EdgeMsg.Ref

open Idealize.ShloMosaic Idealize.ShloMosaic.ValueIdx Cert.ReferenceIdeal Cert.ReferenceIdeal.Gen Cert.EdgeMsg

open scoped BigOperators

/-! ## The words of one endpoint -/

/-- Row r of a [2 × n] array, sliced out as [1 × n] and flattened, reads at e the array's element (r, e). -/
theorem sliceRow_flat_apply {α : Type} {n : ℕ} (r : Fin 2) (off : Fin 2 → ℕ) (h0 : off 0 = r.val) (h1 : off 1 = 0)
    (x : (⟨2, ![2, n]⟩ : Shape).Idx → α) (hs : (⟨2, ![2, n]⟩ : Shape).Slices off ⟨2, ![1, n]⟩)
    (hc : (⟨2, ![1, n]⟩ : Shape).ShapeCasts ⟨1, ![n]⟩) (e : Fin n) :
    shapeCast ⟨1, ![n]⟩ (extractStridedSlice ⟨2, ![1, n]⟩ off x hs) hc (ix1 e) = x (ix2 r e) := by
  rw [shapeCast_apply _ hc (ix1 e) (ix2 (0 : Fin 1) e)
    (by rw [Shape.rowMajor_val_one, Shape.rowMajor_val_two]; show (0 : ℕ) * n + e.val = e.val; omega)]
  refine extractStridedSlice_apply off x hs (ix2 (0 : Fin 1) e) (ix2 r e) fun a => ?_
  match a with
  | ⟨0, _⟩ => show r.val = off 0 + 0; rw [h0]; omega
  | ⟨1, _⟩ => show e.val = off 1 + e.val; rw [h1]; omega

theorem rowWords_apply (ei : IVec S2x3200000 32) (e : Fin 3200000) : rowWords ei (ix1 e) = ei (ix2 (0 : Fin 2) e) :=
  sliceRow_flat_apply (0 : Fin 2) ![0, 0] rfl rfl ei _ _ e

theorem colWords_apply (ei : IVec S2x3200000 32) (e : Fin 3200000) : colWords ei (ix1 e) = ei (ix2 (1 : Fin 2) e) :=
  sliceRow_flat_apply (1 : Fin 2) ![1, 0] rfl rfl ei _ _ e

/-! ## A word that is not negative is kept -/

theorem wrapNeg_apply_of_nonneg (v : IVec S3200000 32) (i : S3200000.Idx) (h : 0 ≤ (v i).toInt) : wrapNeg v i = v i := by
  unfold wrapNeg
  rw [select_apply]
  have hc : cmpi .slt v (broadcastInDim S3200000 ![] bcast_S_S3200000 (constantI S_ 32 0#32)) i = 0#1 := by
    show IntOp.cmpi .slt (v i) 0#32 = 0#1
    unfold IntOp.cmpi
    have : (v i).slt 0#32 = false := by
      unfold BitVec.slt
      simp only [BitVec.toInt_zero, decide_eq_false_iff_not, not_lt]
      exact h
    simp only [this]
    rfl
  rw [hc]
  rfl

/-! ## A vector as a column -/

theorem col_apply {α : Type} {n : ℕ} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  refine broadcastInDim_apply ![0] h₁ v (ix2 p (0 : Fin 1)) (ix1 p) fun a => ?_
  match a with
  | ⟨0, _⟩ =>
    show p.val = if n = 1 then 0 else p.val
    have := p.isLt
    split <;> omega

/-! ## The feature table gathered at the words of one endpoint -/

/-- With the word of edge e not negative, row e of the gathered array is the table's row named by that word. -/
theorem gathered_apply (x : FVec Ideal S100000x25 .f32) (v : IVec S3200000 32) (e : Fin 3200000) (k : Fin 25)
    (h : 0 ≤ (v (ix1 e)).toInt) :
    gathered (F := Ideal) x v (ix2 e k) = x (ix2 (rowOf (v (ix1 e))) k) := by
  have hw : broadcastInDim S3200000x1 ![0] bcast_S3200000_S3200000x1_0 (wrapNeg v) (ix2 e (0 : Fin 1)) = v (ix1 e) := by
    rw [col_apply, wrapNeg_apply_of_nonneg v (ix1 e) h]
  unfold gathered
  rw [Cert.Gcn.GatherClamp.gather2_clamp_apply (n := 100000) (f := 25) (e := 3200000) (by omega)
    gather_S100000x25_S3200000x1_S3200000x25_1_0_n_n_0_1_125 rfl rfl rfl rfl rfl x _ e k]
  refine congrArg x (congrArg (fun r : Fin 100000 => ix2 r k) (Fin.ext ?_))
  show min (broadcastInDim S3200000x1 ![0] bcast_S3200000_S3200000x1_0 (wrapNeg v) (ix2 e (0 : Fin 1))).toInt.toNat (100000 - 1)
    = min (v (ix1 e)).toInt.toNat 99999
  rw [hw]

/-! ## The constant matrix marks each column's degree -/

theorem lit0_mark : ∀ (k : Fin 25) (l : Fin 5),
    lit0 ⟨k.val * 5 + l.val, by omega⟩ = if deg k = l then 0x3F800000#32 else 0x00000000#32 := by
  decide

theorem ofBits_one_f32 : Ideal.ofBits .f32 0x3F800000#32 = 1 := by
  simp [Ideal.ofBits, Ideal.ieee, -EReal.coe_mul]; norm_num

theorem proj_apply (k : Fin 25) (l : Fin 5) :
    proj (F := Ideal) (ix2 k l) = if deg k = l then (1 : EReal) else 0 := by
  unfold proj
  have hm : (S25x5.rowMajor (ix2 k l) : Fin 125) = (⟨k.val * 5 + l.val, by omega⟩ : Fin 125) :=
    Fin.ext (by rw [Shape.rowMajor_val_two]; rfl)
  rw [hm, lit0_mark]
  show Ideal.ofBits .f32 (if deg k = l then 0x3F800000#32 else 0x00000000#32) = _
  split
  · exact ofBits_one_f32
  · exact Ideal.ofBits_zero_f32

/-! ## The product with the 25 × 5 matrix, read at one entry -/

theorem dot_lhs_0 (j : S3200000x5.Idx) (k : dot_S3200000x25_S25x5_S3200000x5_1_0_0_1_n_n.contr.Idx) :
    (dot_S3200000x25_S25x5_S3200000x5_1_0_0_1_n_n.lhsIdx j k 0).val = (j 0).val := by
  unfold DotDims.lhsIdx
  rw [dif_neg (show ¬(0 : Fin S3200000x25.rank) ∈ dot_S3200000x25_S25x5_S3200000x5_1_0_0_1_n_n.lhsBatch by decide),
    dif_pos (show (0 : Fin S3200000x25.rank) ∈ dot_S3200000x25_S25x5_S3200000x5_1_0_0_1_n_n.lhsNonContracting by decide)]
  rfl

theorem dot_lhs_1 (j : S3200000x5.Idx) (k : dot_S3200000x25_S25x5_S3200000x5_1_0_0_1_n_n.contr.Idx) :
    (dot_S3200000x25_S25x5_S3200000x5_1_0_0_1_n_n.lhsIdx j k 1).val = (k ⟨0, by decide⟩).val :=
  dot_S3200000x25_S25x5_S3200000x5_1_0_0_1_n_n.lhsIdx_val_of_single rfl j k

theorem dot_rhs_0 (j : S3200000x5.Idx) (k : dot_S3200000x25_S25x5_S3200000x5_1_0_0_1_n_n.contr.Idx) :
    (dot_S3200000x25_S25x5_S3200000x5_1_0_0_1_n_n.rhsIdx j k 0).val = (k ⟨0, by decide⟩).val :=
  dot_S3200000x25_S25x5_S3200000x5_1_0_0_1_n_n.rhsIdx_val_of_single rfl j k

theorem dot_rhs_1 (j : S3200000x5.Idx) (k : dot_S3200000x25_S25x5_S3200000x5_1_0_0_1_n_n.contr.Idx) :
    (dot_S3200000x25_S25x5_S3200000x5_1_0_0_1_n_n.rhsIdx j k 1).val = (j 1).val := by
  unfold DotDims.rhsIdx
  rw [dif_neg (show ¬(1 : Fin S25x5.rank) ∈ dot_S3200000x25_S25x5_S3200000x5_1_0_0_1_n_n.rhsBatch by decide),
    dif_pos (show (1 : Fin S25x5.rank) ∈ dot_S3200000x25_S25x5_S3200000x5_1_0_0_1_n_n.rhsNonContracting by decide)]
  rfl

/-- Entry (e, l) of the product is the sum over the 25 columns k of A (e, k) · B (k, l). -/
theorem dot_apply (A : FVec Ideal S3200000x25 .f32) (B : FVec Ideal S25x5 .f32) (e : Fin 3200000) (l : Fin 5) :
    Host.dotGeneral dot_S3200000x25_S25x5_S3200000x5_1_0_0_1_n_n none A B (ix2 e l)
      = ∑ k : Fin 25, A (ix2 e k) * B (ix2 k l) := by
  show FloatOps.dotGeneral _ none _ A B (ix2 e l) = _
  rw [Ideal.dotGeneral_apply,
    ← Equiv.sum_comp (contrEquiv1 dot_S3200000x25_S25x5_S3200000x5_1_0_0_1_n_n 25 rfl rfl).symm]
  refine Finset.sum_congr rfl fun c _ => ?_
  have hk := contrEquiv1_symm_val dot_S3200000x25_S25x5_S3200000x5_1_0_0_1_n_n 25 rfl rfl c
  have hl : dot_S3200000x25_S25x5_S3200000x5_1_0_0_1_n_n.lhsIdx (ix2 e l)
      ((contrEquiv1 dot_S3200000x25_S25x5_S3200000x5_1_0_0_1_n_n 25 rfl rfl).symm c) = ix2 e c := by
    funext ax; apply Fin.ext
    match ax with
    | ⟨0, _⟩ => exact dot_lhs_0 _ _
    | ⟨1, _⟩ => exact (dot_lhs_1 _ _).trans hk
  have hr : dot_S3200000x25_S25x5_S3200000x5_1_0_0_1_n_n.rhsIdx (ix2 e l)
      ((contrEquiv1 dot_S3200000x25_S25x5_S3200000x5_1_0_0_1_n_n 25 rfl rfl).symm c) = ix2 c l := by
    funext ax; apply Fin.ext
    match ax with
    | ⟨0, _⟩ => exact (dot_rhs_0 _ _).trans hk
    | ⟨1, _⟩ => exact dot_rhs_1 _ _
  rw [hl, hr]

/-! ## The result, entry by entry -/

/-- With every node word non-negative (read signed), the reference's result is the message array. -/
theorem refTerm_eq_G (ei : IVec S2x3200000 32) (x : FVec Ideal S100000x25 .f32) (h : ∀ i, 0 ≤ (ei i).toInt) :
    refTerm (F := Ideal) ei x = G ei x := by
  funext j
  obtain ⟨e, l, rfl⟩ : ∃ (e : Fin 3200000) (l : Fin 5), j = ix2 e l := ⟨j 0, j 1, eq_ix2 j⟩
  have hr : 0 ≤ (rowWords ei (ix1 e)).toInt := by rw [rowWords_apply]; exact h _
  have hc : 0 ≤ (colWords ei (ix1 e)).toInt := by rw [colWords_apply]; exact h _
  rw [G_apply]
  unfold refTerm
  rw [dot_apply]
  unfold msg
  -- the sum against the 0/1 column of degree l keeps the products whose column has degree l
  refine Eq.trans ?_ (sum_mul_mark
    (fun k => x (ix2 (rowOf (ei (ix2 (0 : Fin 2) e))) k) * x (ix2 (rowOf (ei (ix2 (1 : Fin 2) e))) k))
    (fun k => proj (F := Ideal) (ix2 k l)) l (fun k => proj_apply k l))
  refine Finset.sum_congr rfl fun k _ => ?_
  refine congrArg (fun t => t * proj (F := Ideal) (ix2 k l)) ?_
  rw [mulf_apply, gathered_apply x _ e k hr, gathered_apply x _ e k hc, rowWords_apply, colWords_apply]

end Cert.EdgeMsg.Ref

end
-- ==== Proof.PreFacts.lean ====
/-
  The precondition read back: every node word of the edge list is non-negative as a signed integer.
-/
import proofs.«404434_j27384711479756_4_alg».proof.Defs
import proofs.«404434_j27384711479756_4_alg».proof.Proof.Gen.KernelIdeal
import proofs.«404434_j27384711479756_4_alg».proof.Proof.Gen.Pre_finite_inputs
import Idealize.ShloMosaic.Lib.ReduceAll
import Idealize.ShloMosaic.Lib.StableHlo.Predicate

noncomputable section

namespace Cert.EdgeMsg.PreFacts

open Idealize.ShloMosaic Idealize.SL.Sem

/-- The rank-0 shape has exactly one index. -/
instance subsingleton_scalar_idx : Subsingleton Cert.Pre_finite_inputs.S_.Idx := ⟨fun a b => funext fun d => d.elim0⟩

/-- Under the precondition, every word of the edge list is non-negative read as a signed integer. -/
theorem nonneg_of_pre (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2x3200000.Idx) :
    0 ≤ ((m ((c.tc : Thread Cert.KernelIdeal.nD Cert.KernelIdeal.τ).loc Cert.KernelIdeal.main_arg0) : Cert.KernelIdeal.S2x3200000.Idx → BitVec 32) i).toInt := by
  -- the precondition's one word, at the one index of the rank-0 result
  have h0 := congrFun (h c) (fun a => a.elim0)
  dsimp only [Cert.Pre_finite_inputs.fn] at h0
  -- the conjunction of the two tests is 1: so is the second, the test of all words of the edge list
  have h1 := (IntOp.andi_eq_one.1 h0).2
  -- the reduction by "and" over every axis is 1: so is the compared word at index i
  have h2 := Host.reduce_andi_all _ _ _ _ _ h1 i
  -- the comparison "signed greater or equal" with the broadcast zero
  have h3 := IntOp.cmpi_sge.1 h2
  exact h3

end Cert.EdgeMsg.PreFacts

end
-- ==== Proof.lean ====
/-
  Degree-wise edge messages: a gather of node features by an edge list, an entrywise product, and a per-degree sum.

  Both programs take an edge list edge_index : i32[2, 3200000] and a feature table x : f32[100000, 25] and return
  out : f32[3200000, 5]; the 25 feature columns are laid out degree by degree (2l + 1 columns of degree l = 0 … 4) and

      out[e, l] = ∑_{k of degree l} x[n₀(e), k] · x[n₁(e), k],      nᵢ(e) the node named by edge_index[i, e].

  The kernel program clips each node word to [0, 99999], gathers the two [E × 25] arrays on the host, and a grid of
  1000 points multiplies 3200 rows at a time and sums each degree's stretch of columns. The reference reads a negative
  word NumPy's way (adding the row count), gathers, multiplies, and multiplies the [E × 25] product by the constant
  25 × 5 matrix of zeros and ones that marks each column's degree. A gather reads its start word signed and clamped to
  the table's rows, so on a word that is not negative both programs read row min(word, 99999); on a negative word the
  reference would read another row than the kernel, which is why the precondition asks every node word to be
  non-negative — the only place it is used. The two ways of summing agree on all extended reals (a product with 0 is 0,
  with 1 the factor itself, and adding 0 changes nothing), so the finiteness of the features is never needed.

  The kernel side: the two gathered arrays at the region's entry (KernelHost), the block the body leaves (KernelBody),
  the blocks assembled into the output array (KernelValue). The reference side: its run (RefRun) and its result read entry
  by entry (RefValue). The precondition read back: PreFacts. The idealized kernel is the kernel's own text read over the
  extended reals (the ledger is empty), so nothing is owed for it.
-/
import proofs.«404434_j27384711479756_4_alg».proof.Defs
import proofs.«404434_j27384711479756_4_alg».proof.Proof.Gen.Kernel
import proofs.«404434_j27384711479756_4_alg».proof.Proof.Gen.Kernel.Skeleton
import proofs.«404434_j27384711479756_4_alg».proof.Proof.Gen.Kernel.Launch
import proofs.«404434_j27384711479756_4_alg».proof.Proof.Gen.Kernel.Points
import proofs.«404434_j27384711479756_4_alg».proof.Proof.Gen.Kernel.Frame
import proofs.«404434_j27384711479756_4_alg».proof.Proof.Gen.KernelIdeal
import proofs.«404434_j27384711479756_4_alg».proof.Proof.Gen.KernelIdeal.Skeleton
import proofs.«404434_j27384711479756_4_alg».proof.Proof.Gen.KernelIdeal.Launch
import proofs.«404434_j27384711479756_4_alg».proof.Proof.Gen.KernelIdeal.Points
import proofs.«404434_j27384711479756_4_alg».proof.Proof.Gen.KernelIdeal.Frame
import proofs.«404434_j27384711479756_4_alg».proof.Proof.Gen.KernelIdeal.Value
import proofs.«404434_j27384711479756_4_alg».proof.Proof.Gen.ReferenceIdeal
import proofs.«404434_j27384711479756_4_alg».proof.Proof.Gen.Pre_finite_inputs
import proofs.«404434_j27384711479756_4_alg».proof.Proof.KernelValue
import proofs.«404434_j27384711479756_4_alg».proof.Proof.RefRun
import proofs.«404434_j27384711479756_4_alg».proof.Proof.RefValue
import proofs.«404434_j27384711479756_4_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.EdgeMsg.Ref.run (F := Ideal) m ρ)

/-- From memories agreeing on the arguments both programs end with the message array of those arguments: the kernel on
    any words, the reference on non-negative ones, which the precondition gives. -/
theorem algebraic : Cert.algebraic_KernelIdeal_ReferenceIdeal := by
  intro m ρ m' ρ' hpre hagree
  refine ⟨fun c => Cert.EdgeMsg.G (Cert.EdgeMsg.KValue.edges m c) (Cert.EdgeMsg.KValue.feats m c),
    Cert.EdgeMsg.KValue.run m ρ, ?_⟩
  refine (θ_run Cert.ReferenceIdeal.defs _ _).mono (fun _ h c => ⟨(h c).1.trans ?_, (h c).2⟩)
    (Cert.EdgeMsg.Ref.run (F := Ideal) m' ρ')
  rw [(hagree c).1, (hagree c).2]
  exact Cert.EdgeMsg.Ref.refTerm_eq_G _ _ (fun i => Cert.EdgeMsg.PreFacts.nonneg_of_pre m hpre c i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
